-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S1024x64 : Shape := ⟨2, ![1024, 64]⟩
abbrev S500000 : Shape := ⟨1, ![500000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg4 : IVec S500000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S500000 32 := broadcastInDim S500000 ![] bcast_S_S500000 main_c_14
  let main_v40 : IVec S500000 1 := cmpi .sge main_arg4 main_v39
  let main_c_15 : IVec S_ 1 := constantI S_ 1 1#1
  let main_v41 : IVec S_ 1 := (fun x v => Host.reduce IntOp.andi x v reducesTo_S500000_S_d0 h_S_) main_v40 main_c_15
  let main_v42 : IVec S_ 1 := andi main_v38 main_v41
  main_v42

def fn_part1 {F : FTy → Type} [FloatOps F] (main_arg4 : IVec S500000 32) (main_arg5 : FVec F S256x64 .f32) (main_arg6 : FVec F S64 .f32) (main_arg7 : FVec F S64x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg4 main_arg8 main_v33

def fn {F : FTy → Type} [FloatOps F] (main_arg0 : FVec F S500000x64 .f32) (main_arg1 : FVec F S500000x64 .f32) (main_arg2 : FVec F S500000x64 .f32) (main_arg3 : FVec F S1024x64 .f32) (main_arg4 : IVec S500000 32) (main_arg5 : FVec F S256x64 .f32) (main_arg6 : FVec F S64 .f32) (main_arg7 : FVec F S64x64 .f32) (main_arg8 : FVec F S64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S500000x64 : Shape := ⟨2, ![500000, 64]⟩
abbrev S1024x64 : Shape := ⟨2, ![1024, 64]⟩
abbrev S500000 : Shape := ⟨1, ![500000]⟩
abbrev S256x64 : Shape := ⟨2, ![256, 64]⟩
abbrev S64 : Shape := ⟨1, ![64]⟩
abbrev S64x64 : Shape := ⟨2, ![64, 64]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S5000x64 : Shape := ⟨2, ![5000, 64]⟩
abbrev S5000x256 : Shape := ⟨2, ![5000, 256]⟩
abbrev S1x64 : Shape := ⟨2, ![1, 64]⟩

abbrev nBuf : Space → Nat
  | .hbm => 41
  | .vmem => 14
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S500000x64, .f32⟩
  | .hbm, ⟨3, _⟩ => ⟨S1024x64, .f32⟩
  | .hbm, ⟨4, _⟩ => ⟨S500000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S1, .i32⟩
  | .hbm, ⟨26, _⟩ => ⟨S_, .i32⟩
  | .hbm, ⟨27, _⟩ => ⟨S500000x1, .i32⟩
  | .hbm, ⟨28, _⟩ => ⟨S500000x1, .i1⟩
  | .hbm, ⟨29, _⟩ => ⟨S1x1, .i32⟩
  | .hbm, ⟨30, _⟩ => ⟨S500000x1, .i32⟩
  | .hbm, ⟨31, _⟩ => ⟨S500000x1, .i1⟩
  | .hbm, ⟨32, _⟩ => ⟨S500000x1, .i1⟩
  | .hbm, ⟨33, _⟩ => ⟨S_, .i1⟩
  | .hbm, ⟨34, _⟩ => ⟨S500000, .i1⟩
  | .hbm, ⟨35, _⟩ => ⟨S500000x64, .f32⟩
  | .hbm, ⟨36, _⟩ => ⟨S500000x64, .i1⟩
  | .hbm, ⟨37, _⟩ => ⟨S_, .f32⟩
  | .hbm, ⟨38, _⟩ => ⟨S500000x64, .f32⟩
  | .hbm, ⟨39, _⟩ => ⟨S500000x64, .f32⟩
  | .hbm, ⟨40, _⟩ => ⟨S500000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S256x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_c_0 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_v0 : Ref sig .tc := ⟨.hbm, 16, rfl⟩
abbrev main_call0_call1_c : Ref sig .tc := ⟨.hbm, 17, rfl⟩
abbrev main_call0_call1_v0 : Ref sig .tc := ⟨.hbm, 18, rfl⟩
abbrev main_call0_call1_v1 : Ref sig .tc := ⟨.hbm, 19, rfl⟩
abbrev main_call0_call1_c_0 : Ref sig .tc := ⟨.hbm, 20, rfl⟩
abbrev main_call0_call1_v2 : Ref sig .tc := ⟨.hbm, 21, rfl⟩
abbrev main_call0_call1_v3 : Ref sig .tc := ⟨.hbm, 22, rfl⟩
abbrev main_call0_call1_v4 : Ref sig .tc := ⟨.hbm, 23, rfl⟩
abbrev main_call0_call1_v5 : Ref sig .tc := ⟨.hbm, 24, rfl⟩
abbrev main_call0_call1_c_1 : Ref sig .tc := ⟨.hbm, 25, rfl⟩
abbrev main_call0_call1_c_2 : Ref sig .tc := ⟨.hbm, 26, rfl⟩
abbrev main_call0_call1_v6 : Ref sig .tc := ⟨.hbm, 27, rfl⟩
abbrev main_call0_call1_v7 : Ref sig .tc := ⟨.hbm, 28, rfl⟩
abbrev main_call0_call1_v8 : Ref sig .tc := ⟨.hbm, 29, rfl⟩
abbrev main_call0_call1_v9 : Ref sig .tc := ⟨.hbm, 30, rfl⟩
abbrev main_call0_call1_v10 : Ref sig .tc := ⟨.hbm, 31, rfl⟩
abbrev main_call0_call1_v11 : Ref sig .tc := ⟨.hbm, 32, rfl⟩
abbrev main_call0_call1_c_3 : Ref sig .tc := ⟨.hbm, 33, rfl⟩
abbrev main_call0_call1_v12 : Ref sig .tc := ⟨.hbm, 34, rfl⟩
abbrev main_call0_call1_v13 : Ref sig .tc := ⟨.hbm, 35, rfl⟩
abbrev main_call0_call1_v14 : Ref sig .tc := ⟨.hbm, 36, rfl⟩
abbrev main_call0_call1_cst : Ref sig .tc := ⟨.hbm, 37, rfl⟩
abbrev main_call0_call1_v15 : Ref sig .tc := ⟨.hbm, 38, rfl⟩
abbrev main_call0_v1 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x64_0 : S500000.BroadcastsInDim S500000x64 (![0] : Fin 1 → Fin S500000x64.rank)
  bcast_S_S500000x64 : S_.BroadcastsInDim S500000x64 (![] : Fin 0 → Fin S500000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x64_S5000x64_S5000x256_d1 : Shape.Concatenates [S5000x64, S5000x64, S5000x64, S5000x64] S5000x256 1
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  gather_S1024x64_S500000x1_S500000x64_1_0_n_n_0_1_164_wf : GatherDims.WF S1024x64 S500000x1 S500000x64 [1] [0] [] [0] [] 1 ![1, 64]
  dot_S5000x256_S256x64_S5000x64_1_0_0_1_n_n_wf : DotDims.WF S5000x256 S256x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S500000x64.size a
  hwx0_0 : ∀ i : grid0.Coords, EltTy.bits .f32 = 32 ∨ (Rect.block (s := S500000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S500000x64.size a
  hwx0_1 : ∀ i : grid0.Coords, EltTy.bits .f32 = 32 ∨ (Rect.block (s := S500000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S500000x64.size a
  hwx0_2 : ∀ i : grid0.Coords, EltTy.bits .f32 = 32 ∨ (Rect.block (s := S500000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S500000x64.size a
  hwx0_3 : ∀ i : grid0.Coords, EltTy.bits .f32 = 32 ∨ (Rect.block (s := S500000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S500000x64.size a
  hwx0_8 : ∀ i : grid0.Coords, EltTy.bits .f32 = 32 ∨ (Rect.block (s := S500000x64) S5000x64.size (cc0_transform_8 i) (hinb0_8 i)).WholeWords (EltTy.packing .f32)

variable [Facts₀]

def gather_S1024x64_S500000x1_S500000x64_1_0_n_n_0_1_164 : GatherDims S1024x64 S500000x1 S500000x64 where
  offsetDims := [1]
  collapsedSliceDims := [0]
  operandBatchingDims := []
  startIndicesBatchingDims := []
  startIndexMap := [0]
  indexVectorDim := 1
  sliceSizes := ![1, 64]
  wf := gather_S1024x64_S500000x1_S500000x64_1_0_n_n_0_1_164_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S500000x64 : Shape := ⟨2, ![500000, 64]⟩
abbrev S1024x64 : Shape := ⟨2, ![1024, 64]⟩
abbrev S500000 : Shape := ⟨1, ![500000]⟩
abbrev S256x64 : Shape := ⟨2, ![256, 64]⟩
abbrev S64 : Shape := ⟨1, ![64]⟩
abbrev S64x64 : Shape := ⟨2, ![64, 64]⟩
abbrev S_ : Shape := ⟨0, ![]⟩
abbrev S500000x1 : Shape := ⟨2, ![500000, 1]⟩
abbrev S500000x256 : Shape := ⟨2, ![500000, 256]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S500000x64, .f32⟩
  | .hbm, ⟨3, _⟩ => ⟨S1024x64, .f32⟩
  | .hbm, ⟨4, _⟩ => ⟨S500000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x64, .f32⟩
  | .hbm, ⟨18, _⟩ => ⟨S500000x256, .f32⟩
  | .hbm, ⟨19, _⟩ => ⟨S500000x64, .f32⟩
  | .hbm, ⟨20, _⟩ => ⟨S1x64, .f32⟩
  | .hbm, ⟨21, _⟩ => ⟨S500000x64, .f32⟩
  | .hbm, ⟨22, _⟩ => ⟨S500000x64, .f32⟩
  | .hbm, ⟨23, _⟩ => ⟨S_, .f32⟩
  | .hbm, ⟨24, _⟩ => ⟨S500000x64, .f32⟩
  | .hbm, ⟨25, _⟩ => ⟨S500000x64, .f32⟩
  | .hbm, ⟨26, _⟩ => ⟨S500000x64, .f32⟩
  | .hbm, ⟨27, _⟩ => ⟨S1x64, .f32⟩
  | .hbm, ⟨28, _⟩ => ⟨S500000x64, .f32⟩
  | .hbm, ⟨29, _⟩ => ⟨S500000x64, .f32⟩
  | .hbm, ⟨30, _⟩ => ⟨S_, .f32⟩
  | .hbm, ⟨31, _⟩ => ⟨S500000x64, .f32⟩
  | .hbm, ⟨32, _⟩ => ⟨S500000x64, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_cst : Ref sig .tc := ⟨.hbm, 30, rfl⟩
abbrev main_call1_v0 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x64_S500000x64_S500000x256_d1 : Shape.Concatenates [S500000x64, S500000x64, S500000x64, S500000x64] S500000x256 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  gather_S1024x64_S500000x1_S500000x64_1_0_n_n_0_1_164_wf : GatherDims.WF S1024x64 S500000x1 S500000x64 [1] [0] [] [0] [] 1 ![1, 64]
  dot_S500000x256_S256x64_S500000x64_1_0_0_1_n_n_wf : DotDims.WF S500000x256 S256x64 S500000x64 [1] [0] [0] [1] [] []
  dot_S500000x64_S64x64_S500000x64_1_0_0_1_n_n_wf : DotDims.WF S500000x64 S64x64 S500000x64 [1] [0] [0] [1] [] []

variable [Facts₀]

def gather_S1024x64_S500000x1_S500000x64_1_0_n_n_0_1_164 : GatherDims S1024x64 S500000x1 S500000x64 where
  offsetDims := [1]
  collapsedSliceDims := [0]
  operandBatchingDims := []
  startIndicesBatchingDims := []
  startIndexMap := [0]
  indexVectorDim := 1
  sliceSizes := ![1, 64]
  wf := gather_S1024x64_S500000x1_S500000x64_1_0_n_n_0_1_164_wf
def dot_S500000x256_S256x64_S500000x64_1_0_0_1_n_n : DotDims S500000x256 S256x64 S500000x64 where
  lhsContracting := [1]
  rhsContracting := [0]
  lhsNonContracting := [0]
  rhsNonContracting := [1]
  lhsBatch := []
  rhsBatch := []
  wf := dot_S500000x256_S256x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.Spec.lean ====
/-
  The value both programs compute, one output entry at a time.

  An edge's feature row is four 64-entry rows laid end to end (source node, destination node, edge attribute, the
  gathered global state): 256 entries. The hidden row is  h k = max (∑ l, row l · W1 (l, k) + b1 k) 0  for the 64
  hidden units, and the output row is  out q = max (∑ k, h k · W2 (k, q) + b2 q) 0 . Nothing here rounds: at the
  extended reals a change of float format is the identity, a matrix product into a zero accumulator is the plain sum of
  products, and the comparison with the zero word is a maximum.

  `catRow`, `hidden`, `outRow` state that value over the four rows; `concat4_apply` reads a concatenation of four
  [n, 64] arrays along the feature axis at an index as `catRow` of the four rows; `denseRelu_apply` reads one layer as
  a kernel spells it (matrix product into the zero splat, bias row broadcast from a [1, 64] cast, maximum with a
  splat zero) at an index.
-/
import Idealize.ShloMosaic.Lib.ValueIdx
import Idealize.ShloMosaic.Lib.ValueLayout
import Idealize.ShloMosaic.Lib.Pipeline.Value
import Idealize.ShloMosaic.PureOps.Ideal.Laws
import proofs.«409797_j42606075576610_2_alg».proof.Proof.LibMatmulAt

noncomputable section

open scoped BigOperators

namespace Cert.EdgeMlp

open Idealize.ShloMosaic Idealize.ShloMosaic.ValueIdx

/-- The float zero both programs take a maximum with, kept as its word. -/
abbrev zero32 : EReal := Ideal.ofBits .f32 0x00000000#32

/-- Entry `l` of four 64-entry rows laid end to end. -/
def catRow (r0 r1 r2 r3 : Fin 64 → EReal) (l : Fin 256) : EReal :=
  if h0 : l.val < 64 then r0 ⟨l.val, h0⟩
  else if h1 : l.val < 128 then r1 ⟨l.val - 64, by omega⟩
  else if h2 : l.val < 192 then r2 ⟨l.val - 128, by omega⟩
  else r3 ⟨l.val - 192, by omega⟩

/-- Hidden unit `k` of an edge: the rectified affine image of its 256-entry feature row. -/
def hidden (r0 r1 r2 r3 : Fin 64 → EReal) (W1 : (⟨2, ![256, 64]⟩ : Shape).Idx → EReal)
    (b1 : (⟨1, ![64]⟩ : Shape).Idx → EReal) (k : Fin 64) : EReal :=
  max (∑ l : Fin 256, catRow r0 r1 r2 r3 l * W1 (ix2 l k) + b1 (ix1 k)) zero32

/-- Output entry `q` of an edge: the rectified affine image of its hidden row. -/
def outRow (r0 r1 r2 r3 : Fin 64 → EReal) (W1 : (⟨2, ![256, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (q : Fin 64) : EReal :=
  max (∑ k : Fin 64, hidden r0 r1 r2 r3 W1 b1 k * W2 (ix2 k q) + b2 (ix1 q)) zero32

/-- Row `p` of an [n, 64] array. -/
abbrev rowOf {n : Nat} (x : (⟨2, ![n, 64]⟩ : Shape).Idx → EReal) (p : Fin n) : Fin 64 → EReal := fun j => x (ix2 p j)

/-- The whole [n, 64] result: entry (p, q) is `outRow` of row p of the four feature arrays. -/
def mlpArray {n : Nat} (x0 x1 x2 x3 : (⟨2, ![n, 64]⟩ : Shape).Idx → EReal) (W1 : (⟨2, ![256, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![n, 64]⟩ : Shape).Idx → EReal :=
  fun i => outRow (rowOf x0 ⟨(i 0).val, idx2_lt0 i⟩) (rowOf x1 ⟨(i 0).val, idx2_lt0 i⟩) (rowOf x2 ⟨(i 0).val, idx2_lt0 i⟩)
    (rowOf x3 ⟨(i 0).val, idx2_lt0 i⟩) W1 b1 W2 b2 ⟨(i 1).val, idx2_lt1 i⟩

theorem mlpArray_apply {n : Nat} (x0 x1 x2 x3 : (⟨2, ![n, 64]⟩ : Shape).Idx → EReal) (W1 : (⟨2, ![256, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (p : Fin n) (q : Fin 64) :
    mlpArray x0 x1 x2 x3 W1 b1 W2 b2 (ix2 p q) = outRow (rowOf x0 p) (rowOf x1 p) (rowOf x2 p) (rowOf x3 p) W1 b1 W2 b2 q := rfl

/-- A concatenation of four [n, 64] arrays along the feature axis, at (p, l): entry l of the four rows p laid end to
    end. -/
theorem concat4_apply {n : Nat} (x0 x1 x2 x3 : (⟨2, ![n, 64]⟩ : Shape).Idx → EReal)
    (h : Shape.Concatenates (([⟨⟨2, ![n, 64]⟩, x0⟩, ⟨⟨2, ![n, 64]⟩, x1⟩, ⟨⟨2, ![n, 64]⟩, x2⟩, ⟨⟨2, ![n, 64]⟩, x3⟩] :
        List ((s : Shape) × (s.Idx → EReal))).map (·.1)) ⟨2, ![n, 256]⟩ 1)
    (p : Fin n) (l : Fin 256) :
    concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] h (ix2 p l)
      = catRow (rowOf x0 p) (rowOf x1 p) (rowOf x2 p) (rowOf x3 p) l := by
  have off : ∀ (i : (⟨2, ![n, 64]⟩ : Shape).Idx) (hi : (i 0).val = p.val), ∀ b : Fin (⟨2, ![n, 64]⟩ : Shape).rank,
      b.cast (rfl : (⟨2, ![n, 64]⟩ : Shape).rank = (⟨2, ![n, 256]⟩ : Shape).rank) ≠ (1 : Fin 2) →
      (i b).val = ((ix2 p l : (⟨2, ![n, 256]⟩ : Shape).Idx) (b.cast rfl)).val := by
    intro i hi b hb
    match b with
    | ⟨0, _⟩ => exact hi
    | ⟨1, _⟩ => exact absurd rfl hb
  unfold catRow
  split_ifs with h0 h1 h2
  · exact concatenate_apply_piece 1 _ h (ix2 p l) 0 (by show (0 : Nat) < 4; decide) _ x0 rfl rfl 0 rfl (ix2 p ⟨l.val, h0⟩) (off _ rfl)
      (by show 0 + l.val = l.val; omega)
  · exact concatenate_apply_piece 1 _ h (ix2 p l) 1 (by show (1 : Nat) < 4; decide) _ x1 rfl rfl 64 rfl (ix2 p ⟨l.val - 64, by omega⟩) (off _ rfl)
      (by show 64 + (l.val - 64) = l.val; omega)
  · exact concatenate_apply_piece 1 _ h (ix2 p l) 2 (by show (2 : Nat) < 4; decide) _ x2 rfl rfl 128 rfl (ix2 p ⟨l.val - 128, by omega⟩) (off _ rfl)
      (by show 128 + (l.val - 128) = l.val; omega)
  · exact concatenate_apply_piece 1 _ h (ix2 p l) 3 (by show (3 : Nat) < 4; decide) _ x3 rfl rfl 192 rfl (ix2 p ⟨l.val - 192, by omega⟩) (off _ rfl)
      (by show 192 + (l.val - 192) = l.val; omega)

/-- One layer as a kernel spells it, at (p, q): the matrix product into the zero splat is the sum of products over the
    contracted axis, the bias row cast to [1, 64] and broadcast down the rows reads the bias at q, and the maximum with the
    splat zero is the maximum with the zero word. -/
theorem denseRelu_apply {n K : Nat} {φ₁ φ₂ : FTy} (X : FVec Ideal ⟨2, ![n, K]⟩ φ₁) (W : FVec Ideal ⟨2, ![K, 64]⟩ φ₂)
    (b : FVec Ideal ⟨1, ![64]⟩ .f32)
    (hc : (⟨1, ![64]⟩ : Shape).ShapeCasts ⟨2, ![1, 64]⟩) (hb : (⟨2, ![1, 64]⟩ : Shape).Broadcasts ⟨2, ![n, 64]⟩)
    (p : Fin n) (q : Fin 64) :
    maximumf (addf (matmul (DotDims.plain n K 64) none X W (constant (F := Ideal) ⟨2, ![n, 64]⟩ .f32 0x00000000#32))
          (broadcastTo ⟨2, ![n, 64]⟩ (shapeCast ⟨2, ![1, 64]⟩ b hc) hb))
        (broadcast ⟨2, ![n, 64]⟩ (Scalar.ofBits (F := Ideal) .f32 0x00000000#32)) (ix2 p q)
      = max (∑ k : Fin K, X (ix2 p k) * W (ix2 k q) + b (ix1 q)) zero32 := by
  show max (FloatOps.matmul (DotDims.plain n K 64) none X W (constant (F := Ideal) ⟨2, ![n, 64]⟩ .f32 0x00000000#32) (ix2 p q)
      + broadcastTo ⟨2, ![n, 64]⟩ (shapeCast ⟨2, ![1, 64]⟩ b hc) hb (ix2 p q)) zero32 = _
  rw [MatmulAt.matmul_plain_apply, broadcastTo_1b_ab_apply, shapeCast_a_1a_apply]

end Cert.EdgeMlp

end
-- ==== Proof.KernelPay.lean ====
/-
  The kernel body's one stored value, read at an entry of the block.

  The body concatenates its four [5000, 64] input blocks along the feature axis, multiplies by W1 into a zero
  accumulator, adds the bias row b1, takes the maximum with 0, multiplies by W2 into a zero accumulator, adds b2 and
  takes the maximum with 0 (the two changes of float format before each product are the identity at the extended reals).
  Entry (p, q) of what it stores is therefore `outRow` of row p of the four blocks.
-/
import proofs.«409797_j42606075576610_2_alg».proof.Proof.Gen.KernelIdeal.Skeleton
import proofs.«409797_j42606075576610_2_alg».proof.Proof.Spec

noncomputable section

open scoped BigOperators

namespace Cert.EdgeMlp

open Idealize.ShloMosaic Idealize.ShloMosaic.ValueIdx
open Cert.KernelIdeal Cert.KernelIdeal.Gen

variable [Cert.KernelIdeal.Facts]

/-- Entry (p, q) of the stored block is the output entry q of the edge whose features are row p of the four input
    blocks. -/
theorem pay_apply (v0 v1 v2 v3 : FVec Ideal S5000x64 .f32) (v7 : FVec Ideal S256x64 .f32) (v10 : FVec Ideal S64 .f32)
    (v17 : FVec Ideal S64x64 .f32) (v20 : FVec Ideal S64 .f32) (p : Fin 5000) (q : Fin 64) :
    k0_pay1 (F := Ideal) v0 v1 v2 v3 v7 v10 v17 v20 (ix2 p q)
      = outRow (rowOf v0 p) (rowOf v1 p) (rowOf v2 p) (rowOf v3 p) v7 v10 v17 v20 q := by
  unfold k0_pay1
  refine (denseRelu_apply (n := 5000) (K := 64) _ _ v20 _ _ p q).trans ?_
  unfold outRow
  refine congrArg (fun a => max (a + v20 (ix1 q)) zero32) (Finset.sum_congr rfl fun k _ => ?_)
  refine congrArg (fun a => a * v17 (ix2 k q)) ?_
  refine (denseRelu_apply (n := 5000) (K := 256) _ _ v10 _ _ p k).trans ?_
  unfold hidden
  refine congrArg (fun a => max (a + v10 (ix1 k)) zero32) (Finset.sum_congr rfl fun l _ => ?_)
  refine congrArg (fun a => a * v7 (ix2 l k)) ?_
  refine (concat4_apply v0 v1 v2 (shapeCast S5000x64 v3 Facts₀.shapeCasts_S5000x64_S5000x64)
    Facts₀.concatenates_S5000x64_S5000x64_S5000x64_S5000x64_S5000x256_d1 p l).trans ?_
  rw [shapeCast_self]

end Cert.EdgeMlp

end
-- ==== Proof.LibRowTake.lean ====
/-
  A ROW TAKE read at an index.

  `table[idx]` for a rank-2 table `[N, D]` and a vector of `n` row numbers lowers to a `stablehlo.gather` whose
  start indices are the `[n, 1]` column of row numbers: the table's row axis is collapsed and start-indexed, its
  column axis is the result's one offset axis, a slice is one whole row (`slice_sizes = [1, D]`), and the index
  vector lies on axis 1 of the start indices. Result element `(r, c)` is then the table at row `idx[r, 0]`, read as
  a signed integer and clamped into `[0, N − 1]` (a negative row number reads row 0, one past the end the last
  row), and column `c`. `rowTakeDims` are those dimension numbers at any extents and `gather_rowTake_apply` is the
  read.
-/
import Idealize.ShloMosaic.Lib.ValueIdx

namespace Cert.LibRowTake

open Idealize.ShloMosaic Idealize.ShloMosaic.ValueIdx

variable {α : Type}

/-- The dimension numbers of a row take: table `[N, D]`, start indices `[n, 1]`, result `[n, D]`; their conditions
    `wf` are decided on a program's literal shapes. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row axis of the table is start-indexed and collapsed: its coordinate is the clamped start index alone. -/
theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

/-- The column axis of the table is the slice's one kept axis, not start-indexed: its coordinate is the result's
    offset coordinate alone. -/
theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

/-- THE ROW TAKE READ AT `(r, c)`: the table at the row the start index `idx[r, 0]` names, read signed and clamped
    into `[0, N − 1]`, and column `c`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.TakeClip.lean ====
/-
  The gathered global-state rows, as each program's host code computes them, read at an index.

  The table has 1024 rows. The reference indexes it the NumPy way: a negative row number is first shifted up by
  1024, and the gather clamps what it is given into [0, 1023]. The kernel's host code first clamps the row number
  into [0, 1023], then takes in the default mode: shift a negative number up by 1024 (none is negative any more),
  gather, and replace by a fill value every row whose number fails 0 ≤ · ≤ 1023 (none does).

  For a row number b ≥ 0 both read row min b 1023 of the table: the reference because b is not shifted and the
  gather clamps it from above, the kernel because its clamp already gives min b 1023, which the later steps leave
  alone. (For −1023 ≤ b ≤ −1 they differ — row b + 1024 against row 0 — which is why the statement's
  precondition asks for b ≥ 0.)
-/
import Idealize.ShloMosaic.PureOps
import Idealize.ShloMosaic.PureOps.Reduce
import Idealize.ShloMosaic.Lib.ValueIdx
import Idealize.ShloMosaic.Lib.Affine
import Idealize.ShloMosaic.Lib.Pipeline.Value
import proofs.«409797_j42606075576610_2_alg».proof.Proof.LibRowTake

noncomputable section

namespace Cert.EdgeMlp

open Idealize.ShloMosaic Idealize.ShloMosaic.ValueIdx

/-! ## Words -/

theorem toInt_w0 : (0#32 : BitVec 32).toInt = 0 := by decide
theorem toInt_w1023 : (1023#32 : BitVec 32).toInt = 1023 := by decide

/-- The signed maximum with 0 of a word that is not negative is the word. -/
theorem maxsi_zero_nonneg {b : BitVec 32} (hb : 0 ≤ b.toInt) : IntOp.maxsi 0#32 b = b := by
  unfold IntOp.maxsi
  rw [if_neg]
  rw [BitVec.slt_iff_toInt_lt, toInt_w0]
  omega

/-- The kernel's clamp of a row number that is not negative: as an integer, the smaller of the number and 1023. -/
theorem clamp_toInt {b : BitVec 32} (hb : 0 ≤ b.toInt) :
    (IntOp.minsi 1023#32 (IntOp.maxsi 0#32 b)).toInt = min b.toInt 1023 := by
  rw [maxsi_zero_nonneg hb]
  unfold IntOp.minsi
  split
  · rename_i h
    rw [BitVec.slt_iff_toInt_lt, toInt_w1023] at h
    rw [toInt_w1023]; omega
  · rename_i h
    rw [BitVec.slt_iff_toInt_lt, toInt_w1023] at h
    omega

/-- A word that is not negative is not shifted by the take's wrap-around step. -/
theorem wrap_nonneg {c : BitVec 32} (hc : 0 ≤ c.toInt) :
    Scalar.select (IntOp.cmpi .slt c 0#32) (IntOp.addi c 1024#32) c = c := by
  have h : IntOp.cmpi .slt c 0#32 = 0#1 :=
    eq_zero_of_ne_one (fun h1 => by rw [IntOp.cmpi_slt, toInt_w0] at h1; omega)
  rw [h]
  exact select_zero _ _

/-- A word in [0, 1023] passes both comparisons of the take's range test. -/
theorem inRange_bit {c : BitVec 32} (h0 : 0 ≤ c.toInt) (h1 : c.toInt ≤ 1023) :
    IntOp.andi (IntOp.cmpi .sge c 0#32) (IntOp.cmpi .sle c 1023#32) = 1#1 := by
  rw [IntOp.andi_eq_one, IntOp.cmpi_sge, IntOp.cmpi_sle, toInt_w0, toInt_w1023]
  exact ⟨h0, h1⟩

/-! ## Folds of the conjunction -/

/-- A left fold by `and` from the bit 1 over entries that are all the bit 1 ends at the bit 1. -/
theorem foldl_andi_all_one {ι : Type} (f : ι → BitVec 1) :
    ∀ l : List ι, (∀ a ∈ l, f a = 1#1) → l.foldl (fun r a => IntOp.andi r (f a)) 1#1 = 1#1
  | [], _ => rfl
  | a :: l, h => by
    rw [List.foldl_cons, h a (List.mem_cons_self ..)]
    exact foldl_andi_all_one f l (fun b hb => h b (List.mem_cons_of_mem _ hb))

/-- An and-reduction from the bit 1 of an array of bits that are all 1 is 1 at every result index. -/
theorem reduce_andi_all_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_all_one x _ (fun a _ => hx a)

/-! ## The two spellings of the gathered rows -/

section Take
variable {α : Type} {n : Nat}
variable (wf : GatherDims.WF ⟨2, ![1024, 64]⟩ ⟨2, ![n, 1]⟩ ⟨2, ![n, 64]⟩ [1] [0] [] [0] [] 1 ![1, 64])
variable (hb0 : (⟨0, ![]⟩ : Shape).BroadcastsInDim ⟨1, ![n]⟩ ![])
variable (hb5 : (⟨1, ![n]⟩ : Shape).BroadcastsInDim ⟨2, ![n, 1]⟩ ![0])

/-- Row numbers after the wrap-around step: a negative one shifted up by the table's 1024 rows. -/
def wrapped (I : IVec ⟨1, ![n]⟩ 32) : IVec ⟨1, ![n]⟩ 32 :=
  select (cmpi .slt I (broadcastInDim ⟨1, ![n]⟩ ![] hb0 (constantI ⟨0, ![]⟩ 32 0#32)))
    (addi I (broadcastInDim ⟨1, ![n]⟩ ![] hb0 (constantI ⟨0, ![]⟩ 32 1024#32))) I

/-- The column [n, 1] of wrapped row numbers a gather takes as start indices. -/
def wrappedCol (I : IVec ⟨1, ![n]⟩ 32) : IVec ⟨2, ![n, 1]⟩ 32 :=
  broadcastInDim ⟨2, ![n, 1]⟩ ![0] hb5 (wrapped hb0 I)

theorem wrappedCol_apply (I : IVec ⟨1, ![n]⟩ 32) (P : Fin n) (z : Fin 1) :
    wrappedCol hb0 hb5 I (ix2 P z) = wrapped hb0 I (ix1 P) := by
  unfold wrappedCol
  refine broadcastInDim_apply ![0] hb5 _ (ix2 P z) (ix1 P) fun a => ?_
  match a with
  | ⟨0, _⟩ =>
    show P.val = if n = 1 then 0 else P.val
    split
    · have := P.isLt; omega
    · rfl

theorem wrapped_apply (I : IVec ⟨1, ![n]⟩ 32) (P : Fin n) :
    wrapped hb0 I (ix1 P) = Scalar.select (IntOp.cmpi .slt (I (ix1 P)) 0#32) (IntOp.addi (I (ix1 P)) 1024#32) (I (ix1 P)) := rfl

/-- THE REFERENCE'S ROWS: `table[B]`. -/
def refRows (u : (⟨2, ![1024, 64]⟩ : Shape).Idx → α) (B : IVec ⟨1, ![n]⟩ 32) : (⟨2, ![n, 64]⟩ : Shape).Idx → α :=
  Host.gather (LibRowTake.rowTakeDims 1024 64 n wf) u (wrappedCol hb0 hb5 B)

/-- The kernel's clamped row numbers. -/
def clamped (B : IVec ⟨1, ![n]⟩ 32) : IVec ⟨1, ![n]⟩ 32 :=
  minsi (broadcastInDim ⟨1, ![n]⟩ ![] hb0 (constantI ⟨0, ![]⟩ 32 1023#32))
    (maxsi (broadcastInDim ⟨1, ![n]⟩ ![] hb0 (constantI ⟨0, ![]⟩ 32 0#32)) B)

theorem clamped_apply (B : IVec ⟨1, ![n]⟩ 32) (P : Fin n) :
    clamped hb0 B (ix1 P) = IntOp.minsi 1023#32 (IntOp.maxsi 0#32 (B (ix1 P))) := rfl

variable (hb6 : (⟨0, ![]⟩ : Shape).BroadcastsInDim ⟨2, ![n, 1]⟩ ![])
variable (hb8 : (⟨1, ![1]⟩ : Shape).BroadcastsInDim ⟨2, ![1, 1]⟩ ![1])
variable (hb9 : (⟨2, ![1, 1]⟩ : Shape).BroadcastsInDim ⟨2, ![n, 1]⟩ ![0, 1])
variable (hred : (⟨2, ![n, 1]⟩ : Shape).ReducesTo [1] ⟨1, ![n]⟩) (hu : 0 < (⟨0, ![]⟩ : Shape).numel)
variable (hb14 : (⟨1, ![n]⟩ : Shape).BroadcastsInDim ⟨2, ![n, 64]⟩ ![0])

/-- The take's range test on a column of row numbers: both comparisons, entry by entry. -/
def rangeTest (C : IVec ⟨2, ![n, 1]⟩ 32) : IVec ⟨2, ![n, 1]⟩ 1 :=
  andi (cmpi .sge C (broadcastInDim ⟨2, ![n, 1]⟩ ![] hb6 (constantI ⟨0, ![]⟩ 32 0#32)))
    (cmpi .sle C (broadcastInDim ⟨2, ![n, 1]⟩ ![0, 1] hb9 (broadcastInDim ⟨2, ![1, 1]⟩ ![1] hb8 (constantI ⟨1, ![1]⟩ 32 1023#32))))

/-- THE KERNEL'S ROWS: clamp the row numbers, then take in the default mode (wrap, gather, range test, fill). -/
def kernelRows (u : (⟨2, ![1024, 64]⟩ : Shape).Idx → α) (fill : (⟨2, ![n, 64]⟩ : Shape).Idx → α) (B : IVec ⟨1, ![n]⟩ 32) :
    (⟨2, ![n, 64]⟩ : Shape).Idx → α :=
  select (broadcastInDim ⟨2, ![n, 64]⟩ ![0] hb14
      (Host.reduce IntOp.andi (rangeTest hb6 hb8 hb9 (wrappedCol hb0 hb5 (clamped hb0 B))) (constantI ⟨0, ![]⟩ 1 1#1) hred hu))
    (Host.gather (LibRowTake.rowTakeDims 1024 64 n wf) u (wrappedCol hb0 hb5 (clamped hb0 B))) fill

/-- The reference's rows at (P, j), for a row number that is not negative: row `min b 1023` of the table. -/
theorem refRows_apply (u : (⟨2, ![1024, 64]⟩ : Shape).Idx → α) (B : IVec ⟨1, ![n]⟩ 32) (P : Fin n) (j : Fin 64)
    (hB : 0 ≤ (B (ix1 P)).toInt) :
    refRows wf hb0 hb5 u B (ix2 P j) = u (ix2 ⟨min (B (ix1 P)).toInt.toNat 1023, by omega⟩ j) := by
  unfold refRows
  rw [LibRowTake.gather_rowTake_apply (by decide) wf u _ P j]
  refine congrArg u (congrArg (fun r => ix2 r j) (Fin.ext ?_))
  show min (wrappedCol hb0 hb5 B (ix2 P 0)).toInt.toNat (1024 - 1) = min (B (ix1 P)).toInt.toNat 1023
  rw [wrappedCol_apply, wrapped_apply, wrap_nonneg hB]

/-- The kernel's rows at (P, j), for a row number that is not negative: the same row `min b 1023`. -/
theorem kernelRows_apply (u : (⟨2, ![1024, 64]⟩ : Shape).Idx → α) (fill : (⟨2, ![n, 64]⟩ : Shape).Idx → α)
    (B : IVec ⟨1, ![n]⟩ 32) (hB : ∀ e : Fin n, 0 ≤ (B (ix1 e)).toInt) (P : Fin n) (j : Fin 64) :
    kernelRows wf hb0 hb5 hb6 hb8 hb9 hred hu hb14 u fill B (ix2 P j)
      = u (ix2 ⟨min (B (ix1 P)).toInt.toNat 1023, by omega⟩ j) := by
  -- every clamped row number lies in [0, 1023], so it is not shifted and passes the range test
  have hc : ∀ e : Fin n, (clamped hb0 B (ix1 e)).toInt = min (B (ix1 e)).toInt 1023 := fun e => by
    rw [clamped_apply]; exact clamp_toInt (hB e)
  have hcol : ∀ (e : Fin n) (z : Fin 1), wrappedCol hb0 hb5 (clamped hb0 B) (ix2 e z) = clamped hb0 B (ix1 e) := fun e z => by
    rw [wrappedCol_apply, wrapped_apply, wrap_nonneg (by rw [hc e]; have := hB e; omega)]
  have hmask : ∀ i, rangeTest hb6 hb8 hb9 (wrappedCol hb0 hb5 (clamped hb0 B)) i = 1#1 := fun i => by
    obtain ⟨e, z, rfl⟩ : ∃ (e : Fin n) (z : Fin 1), i = ix2 e z := ⟨i 0, i 1, eq_ix2 i⟩
    show IntOp.andi (IntOp.cmpi .sge (wrappedCol hb0 hb5 (clamped hb0 B) (ix2 e z)) 0#32)
        (IntOp.cmpi .sle (wrappedCol hb0 hb5 (clamped hb0 B) (ix2 e z)) 1023#32) = 1#1
    rw [hcol e z]
    exact inRange_bit (by rw [hc e]; have := hB e; omega) (by rw [hc e]; omega)
  unfold kernelRows
  rw [select_apply]
  have hbit : broadcastInDim ⟨2, ![n, 64]⟩ ![0] hb14
      (Host.reduce IntOp.andi (rangeTest hb6 hb8 hb9 (wrappedCol hb0 hb5 (clamped hb0 B))) (constantI ⟨0, ![]⟩ 1 1#1) hred hu)
      (ix2 P j) = 1#1 :=
    reduce_andi_all_one _ _ hred hu hmask (fun _ => rfl) _
  rw [hbit, select_one, LibRowTake.gather_rowTake_apply (by decide) wf u _ P j]
  refine congrArg u (congrArg (fun r => ix2 r j) (Fin.ext ?_))
  show min (wrappedCol hb0 hb5 (clamped hb0 B) (ix2 P 0)).toInt.toNat (1024 - 1) = min (B (ix1 P)).toInt.toNat 1023
  rw [hcol P 0, hc P]
  have := hB P
  omega

/-- So, when no row number is negative, the kernel's rows are the reference's. -/
theorem kernelRows_eq_refRows (u : (⟨2, ![1024, 64]⟩ : Shape).Idx → α) (fill : (⟨2, ![n, 64]⟩ : Shape).Idx → α)
    (B : IVec ⟨1, ![n]⟩ 32) (hB : ∀ e : Fin n, 0 ≤ (B (ix1 e)).toInt) :
    kernelRows wf hb0 hb5 hb6 hb8 hb9 hred hu hb14 u fill B = refRows wf hb0 hb5 u B := by
  funext i
  obtain ⟨P, j, rfl⟩ : ∃ (P : Fin n) (j : Fin 64), i = ix2 P j := ⟨i 0, i 1, eq_ix2 i⟩
  rw [kernelRows_apply wf hb0 hb5 hb6 hb8 hb9 hred hu hb14 u fill B hB P j, refRows_apply wf hb0 hb5 u B P j (hB P)]

end Take

end Cert.EdgeMlp

end
-- ==== Proof.KernelArray.lean ====
/-
  The kernel's result array after the run, as one function of the arguments.

  The grid has 100 points. Point t stages rows 5000 t … 5000 t + 4999 of the three per-edge feature arrays and of the
  gathered global-state rows, and the two weight matrices and two bias vectors whole; it writes back rows
  5000 t … 5000 t + 4999 of the result. Entry (p, q) of what it writes is `outRow` of row p of its four feature blocks
  (the body's stored value read at an entry), that is of row 5000 t + p of the four arrays: block t of `mlpArray` of
  the arrays. The 100 blocks cover the result (row r lies in block r / 5000), so the result array is `mlpArray` of
  the arrays as the region finds them.

  The gathered rows are written by the host code before the region: clamp the batch numbers, then a default-mode take
  (`kernelRows`); when no batch number is negative they are the reference's rows (`refRows`).
-/
import proofs.«409797_j42606075576610_2_alg».proof.Proof.Gen.KernelIdeal.Value
import proofs.«409797_j42606075576610_2_alg».proof.Proof.KernelPay
import proofs.«409797_j42606075576610_2_alg».proof.Proof.TakeClip
import Idealize.ShloMosaic.Lib.Pipeline.Value
import Idealize.ShloMosaic.Lib.StableHlo.Run
import Idealize.ShloMosaic.Lib.Tactic

set_option maxRecDepth 16384

noncomputable section

namespace Cert.EdgeMlp.Kern

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.EdgeMlp

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

theorem t_lt (t : Fin cfg0.N) : t.val < 100 := lt_of_lt_of_eq t.isLt N_0

/-- The printed index maps over the 100 grid points: the four row-blocked inputs and the output are at block row t,
    the weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## The blocks a point stages, by their literal types -/

abbrev xb0 (c : Dev nD) (t : Fin cfg0.N) : FVec Ideal S5000x64 .f32 := iblk m c 0 t
abbrev xb1 (c : Dev nD) (t : Fin cfg0.N) : FVec Ideal S5000x64 .f32 := iblk m c 1 t
abbrev xb2 (c : Dev nD) (t : Fin cfg0.N) : FVec Ideal S5000x64 .f32 := iblk m c 2 t
abbrev xb3 (c : Dev nD) (t : Fin cfg0.N) : FVec Ideal S5000x64 .f32 := iblk m c 3 t
abbrev wb4 (c : Dev nD) (t : Fin cfg0.N) : FVec Ideal S256x64 .f32 := iblk m c 4 t
abbrev wb5 (c : Dev nD) (t : Fin cfg0.N) : FVec Ideal S64 .f32 := iblk m c 5 t
abbrev wb6 (c : Dev nD) (t : Fin cfg0.N) : FVec Ideal S64x64 .f32 := iblk m c 6 t
abbrev wb7 (c : Dev nD) (t : Fin cfg0.N) : FVec Ideal S64 .f32 := iblk m c 7 t

/-- The arrays the region finds, by their literal types. -/
abbrev ar0 (c : Dev nD) : FVec Ideal S500000x64 .f32 := V m c main_arg0
abbrev ar1 (c : Dev nD) : FVec Ideal S500000x64 .f32 := V m c main_arg1
abbrev ar2 (c : Dev nD) : FVec Ideal S500000x64 .f32 := V m c main_arg2
abbrev ar3 (c : Dev nD) : FVec Ideal S500000x64 .f32 := V m c main_call0_v1
abbrev ar5 (c : Dev nD) : FVec Ideal S256x64 .f32 := V m c main_arg5
abbrev ar6 (c : Dev nD) : FVec Ideal S64 .f32 := V m c main_arg6
abbrev ar7 (c : Dev nD) : FVec Ideal S64x64 .f32 := V m c main_arg7
abbrev ar8 (c : Dev nD) : FVec Ideal S64 .f32 := V m c main_arg8

/-- Row 5000 t + p of a [500000, 64] array. -/
abbrev rowAt (t : Fin cfg0.N) (p : Fin 5000) : Fin 500000 := ⟨5000 * t.val + p.val, by have := t_lt t; omega⟩

/-- Row p of a row-blocked input's block at point t is row 5000 t + p of its array. -/
theorem xb0_row (c : Dev nD) (t : Fin cfg0.N) (p : Fin 5000) : rowOf (xb0 m c t) p = rowOf (ar0 m c) (rowAt t p) := by
  funext j
  show V m c main_arg0 (((cfg0.win 0).blk t).view.emb (ix2 p j)) = V m c main_arg0 (ix2 (rowAt t p) j)
  refine congrArg (V m c main_arg0) (funext fun a => Fin.ext ?_)
  obtain ⟨e0, e1, -⟩ := idx_facts t
  match a with
  | ⟨0, _⟩ => show win0_0.index t (0 : Fin 2) * 5000 + 1 * p.val = 5000 * t.val + p.val; rw [e0]; omega
  | ⟨1, _⟩ => show win0_0.index t (1 : Fin 2) * 64 + 1 * j.val = j.val; rw [e1]; omega

theorem xb1_row (c : Dev nD) (t : Fin cfg0.N) (p : Fin 5000) : rowOf (xb1 m c t) p = rowOf (ar1 m c) (rowAt t p) := by
  funext j
  show V m c main_arg1 (((cfg0.win 1).blk t).view.emb (ix2 p j)) = V m c main_arg1 (ix2 (rowAt t p) j)
  refine congrArg (V m c main_arg1) (funext fun a => Fin.ext ?_)
  obtain ⟨-, -, e0, e1, -⟩ := idx_facts t
  match a with
  | ⟨0, _⟩ => show win0_1.index t (0 : Fin 2) * 5000 + 1 * p.val = 5000 * t.val + p.val; rw [e0]; omega
  | ⟨1, _⟩ => show win0_1.index t (1 : Fin 2) * 64 + 1 * j.val = j.val; rw [e1]; omega

theorem xb2_row (c : Dev nD) (t : Fin cfg0.N) (p : Fin 5000) : rowOf (xb2 m c t) p = rowOf (ar2 m c) (rowAt t p) := by
  funext j
  show V m c main_arg2 (((cfg0.win 2).blk t).view.emb (ix2 p j)) = V m c main_arg2 (ix2 (rowAt t p) j)
  refine congrArg (V m c main_arg2) (funext fun a => Fin.ext ?_)
  obtain ⟨-, -, -, -, e0, e1, -⟩ := idx_facts t
  match a with
  | ⟨0, _⟩ => show win0_2.index t (0 : Fin 2) * 5000 + 1 * p.val = 5000 * t.val + p.val; rw [e0]; omega
  | ⟨1, _⟩ => show win0_2.index t (1 : Fin 2) * 64 + 1 * j.val = j.val; rw [e1]; omega

theorem xb3_row (c : Dev nD) (t : Fin cfg0.N) (p : Fin 5000) : rowOf (xb3 m c t) p = rowOf (ar3 m c) (rowAt t p) := by
  funext j
  show V m c main_call0_v1 (((cfg0.win 3).blk t).view.emb (ix2 p j)) = V m c main_call0_v1 (ix2 (rowAt t p) j)
  refine congrArg (V m c main_call0_v1) (funext fun a => Fin.ext ?_)
  obtain ⟨-, -, -, -, -, -, e0, e1, -⟩ := idx_facts t
  match a with
  | ⟨0, _⟩ => show win0_3.index t (0 : Fin 2) * 5000 + 1 * p.val = 5000 * t.val + p.val; rw [e0]; omega
  | ⟨1, _⟩ => show win0_3.index t (1 : Fin 2) * 64 + 1 * j.val = j.val; rw [e1]; omega

/-- A whole-array window's block at any point is its array. -/
theorem wb4_eq (c : Dev nD) (t : Fin cfg0.N) : wb4 m c t = ar5 m c := by
  funext i
  show V m c main_arg5 (((cfg0.win 4).blk t).view.emb i) = V m c main_arg5 i
  refine congrArg (V m c main_arg5) (funext fun a => Fin.ext ?_)
  obtain ⟨-, -, -, -, -, -, -, -, e0, e1, -⟩ := idx_facts t
  match a with
  | ⟨0, _⟩ => show win0_4.index t (0 : Fin 2) * 256 + 1 * (i 0).val = (i 0).val; rw [e0]; omega
  | ⟨1, _⟩ => show win0_4.index t (1 : Fin 2) * 64 + 1 * (i 1).val = (i 1).val; rw [e1]; omega

theorem wb5_eq (c : Dev nD) (t : Fin cfg0.N) : wb5 m c t = ar6 m c := by
  funext i
  show V m c main_arg6 (((cfg0.win 5).blk t).view.emb i) = V m c main_arg6 i
  refine congrArg (V m c main_arg6) (funext fun a => Fin.ext ?_)
  obtain ⟨-, -, -, -, -, -, -, -, -, -, e0, -⟩ := idx_facts t
  match a with
  | ⟨0, _⟩ => show win0_5.index t (0 : Fin 1) * 64 + 1 * (i 0).val = (i 0).val; rw [e0]; omega

theorem wb6_eq (c : Dev nD) (t : Fin cfg0.N) : wb6 m c t = ar7 m c := by
  funext i
  show V m c main_arg7 (((cfg0.win 6).blk t).view.emb i) = V m c main_arg7 i
  refine congrArg (V m c main_arg7) (funext fun a => Fin.ext ?_)
  obtain ⟨-, -, -, -, -, -, -, -, -, -, -, e0, e1, -⟩ := idx_facts t
  match a with
  | ⟨0, _⟩ => show win0_6.index t (0 : Fin 2) * 64 + 1 * (i 0).val = (i 0).val; rw [e0]; omega
  | ⟨1, _⟩ => show win0_6.index t (1 : Fin 2) * 64 + 1 * (i 1).val = (i 1).val; rw [e1]; omega

theorem wb7_eq (c : Dev nD) (t : Fin cfg0.N) : wb7 m c t = ar8 m c := by
  funext i
  show V m c main_arg8 (((cfg0.win 7).blk t).view.emb i) = V m c main_arg8 i
  refine congrArg (V m c main_arg8) (funext fun a => Fin.ext ?_)
  obtain ⟨-, -, -, -, -, -, -, -, -, -, -, -, -, e0, -⟩ := idx_facts t
  match a with
  | ⟨0, _⟩ => show win0_7.index t (0 : Fin 1) * 64 + 1 * (i 0).val = (i 0).val; rw [e0]; omega

/-! ## The result array -/

/-- The result as the region computes it: `mlpArray` of the arrays the region finds. -/
abbrev result (c : Dev nD) : FVec Ideal S500000x64 .f32 :=
  mlpArray (ar0 m c) (ar1 m c) (ar2 m c) (ar3 m c) (ar5 m c) (ar6 m c) (ar7 m c) (ar8 m c)

/-- Entry (p, q) of the output's block at point t sits at (5000 t + p, q) of the array. -/
theorem emb8 (t : Fin cfg0.N) (p : Fin 5000) (q : Fin 64) :
    (((cfg0.win 8).blk t).view.emb (ix2 p q) : S500000x64.Idx) = ix2 (rowAt t p) q := by
  funext a
  refine Fin.ext ?_
  obtain ⟨-, -, -, -, -, -, -, -, -, -, -, -, -, -, e0, e1⟩ := idx_facts t
  match a with
  | ⟨0, _⟩ => show win0_8.index t (0 : Fin 2) * 5000 + 1 * p.val = 5000 * t.val + p.val; rw [e0]; omega
  | ⟨1, _⟩ => show win0_8.index t (1 : Fin 2) * 64 + 1 * q.val = q.val; rw [e1]; omega

/-- WHAT POINT t WRITES BACK is block t of `result`. -/
theorem flushed8_eq (c : Dev nD) (t : Fin cfg0.N) :
    (dats m 0 c).flushed 8 t = ((cfg0.win 8).blk t).view.read (Elt Ideal) (result m c) := by
  rw [Value.flushed8]
  unfold out0_8
  rw [View.canon_unit_zero hz2]
  simp only [View.ld_unit_zero (S := S5000x64) hz2, View.ld_unit_zero (S := S256x64) hz2, View.ld_unit_zero (S := S64) hz1,
    View.ld_unit_zero (S := S64x64) hz2]
  funext j
  obtain ⟨p, q, rfl⟩ : ∃ (p : Fin 5000) (q : Fin 64), j = ix2 p q := ⟨j 0, j 1, eq_ix2 j⟩
  show k0_pay1 (F := Ideal) (xb0 m c t) (xb1 m c t) (xb2 m c t) (xb3 m c t) (wb4 m c t) (wb5 m c t) (wb6 m c t) (wb7 m c t) (ix2 p q)
    = result m c (((cfg0.win 8).blk t).view.emb (ix2 p q))
  rw [emb8 t p q]
  refine (pay_apply (xb0 m c t) (xb1 m c t) (xb2 m c t) (xb3 m c t) (wb4 m c t) (wb5 m c t) (wb6 m c t) (wb7 m c t) p q).trans ?_
  rw [xb0_row m c t p, xb1_row m c t p, xb2_row m c t p, xb3_row m c t p, wb4_eq m c t, wb5_eq m c t, wb6_eq m c t, wb7_eq m c t]
  exact (mlpArray_apply _ _ _ _ _ _ _ _ (rowAt t p) q).symm

/-- Every index of the result lies in some point's block: row r in block r / 5000. -/
theorem cover8 (i : S500000x64.Idx) :
    ∃ t : Fin cfg0.N, (cfg0.win 8).flush t = true ∧ i ∈ ((cfg0.win 8).blk t).view.set := by
  have hi0 : (i 0).val < 500000 := (i 0).isLt
  have hi1 : (i 1).val < 64 := (i 1).isLt
  obtain ⟨t, ht⟩ : ∃ t : Fin cfg0.N, t.val = (i 0).val / 5000 :=
    ⟨⟨(i 0).val / 5000, by rw [show cfg0.N = 100 from N_0]; omega⟩, rfl⟩
  obtain ⟨-, -, -, -, -, -, -, -, -, -, -, -, -, -, e0, e1⟩ := idx_facts t
  refine ⟨t, flush0_8 t, ?_⟩
  show i ∈ ((View.whole main_v0).slice (win0_8.rect t)).set
  rw [View.set_slice_whole, Rect.mem_set_unit]
  intro a
  match a with
  | ⟨0, _⟩ =>
    show win0_8.index t (0 : Fin 2) * 5000 ≤ (i 0).val ∧ (i 0).val < win0_8.index t (0 : Fin 2) * 5000 + 5000
    rw [e0, ht]; omega
  | ⟨1, _⟩ =>
    show win0_8.index t (1 : Fin 2) * 64 ≤ (i 1).val ∧ (i 1).val < win0_8.index t (1 : Fin 2) * 64 + 64
    rw [e1]; omega

/-- THE RESULT ARRAY after the run. -/
theorem final8 (c : Dev nD) : (dats m 0 c).arrAt 8 cfg0.N = result m c :=
  (dats m 0 c).arrAt_eq_of_cover 8 (result m c) (fun t _ => flushed8_eq m c t) cover8

/-! ## The gathered rows the host code writes before the region -/

set_option maxHeartbeats 2000000 in
set_option maxRecDepth 65536 in
/-- The array window 3 stages is the kernel's spelling of the gathered rows, over the table and the batch numbers as
    launched. -/
theorem gathered_eq (c : Dev nD) :
    ar3 m c = kernelRows Facts₀.gather_S1024x64_S500000x1_S500000x64_1_0_n_n_0_1_164_wf Facts₀.bcast_S_S500000
      Facts₀.bcast_S500000_S500000x1_0 Facts₀.bcast_S_S500000x1 Facts₀.bcast_S1_S1x1_1 Facts₀.bcast_S1x1_S500000x1_0_1
      Facts₀.reducesTo_S500000x1_S500000_d1 Facts₀.h_S_ Facts₀.bcast_S500000_S500000x64_0
      (m ((c : Thread nD τ).loc main_arg3))
      (broadcastInDim S500000x64 ![] Facts₀.bcast_S_S500000x64 (constant (F := Ideal) S_ .f32 0x7FC00000#32))
      (m ((c : Thread nD τ).loc main_arg4)) := by
  show (V m c main_call0_v1 : S500000x64.Idx → EReal) = _
  dsimp only [Gen.V, Gen.hostOps0]
  after_results_simp
  simp only [cast_eq, id]
  unfold kernelRows rangeTest wrappedCol wrapped clamped
  rfl

/-- When no batch number is negative, the result is `mlpArray` of the arguments as launched, with the reference's
    gathered rows. -/
theorem result_eq (c : Dev nD) (hB : ∀ e : Fin 500000, 0 ≤ (m ((c : Thread nD τ).loc main_arg4) (ix1 e)).toInt) :
    result m c = mlpArray (m ((c : Thread nD τ).loc main_arg0)) (m ((c : Thread nD τ).loc main_arg1))
      (m ((c : Thread nD τ).loc main_arg2))
      (refRows Facts₀.gather_S1024x64_S500000x1_S500000x64_1_0_n_n_0_1_164_wf Facts₀.bcast_S_S500000
        Facts₀.bcast_S500000_S500000x1_0 (m ((c : Thread nD τ).loc main_arg3)) (m ((c : Thread nD τ).loc main_arg4)))
      (m ((c : Thread nD τ).loc main_arg5)) (m ((c : Thread nD τ).loc main_arg6))
      (m ((c : Thread nD τ).loc main_arg7)) (m ((c : Thread nD τ).loc main_arg8)) := by
  show mlpArray (V m c main_arg0) (V m c main_arg1) (V m c main_arg2) (ar3 m c) (V m c main_arg5) (V m c main_arg6)
    (V m c main_arg7) (V m c main_arg8) = _
  rw [V_main_arg0, V_main_arg1, V_main_arg2, V_main_arg5, V_main_arg6, V_main_arg7, V_main_arg8, gathered_eq m c,
    kernelRows_eq_refRows _ _ _ _ _ _ _ _ _ _ _ _ hB]

/-- THE RUN, READ: the result array at `mlpArray` of the arguments, the arguments unchanged. -/
theorem run (hB : ∀ (c : Dev nD) (e : Fin 500000), 0 ≤ (m ((c : Thread nD τ).loc main_arg4) (ix1 e)).toInt) :
    θ_run defs (onTc (τ := τ) (main (F := Ideal))) ⟨m, fun _ => 0, ρ⟩ fun r => ∀ c : Dev nD,
      r.2.mem ((c : Thread nD τ).loc main_v0)
        = mlpArray (m ((c : Thread nD τ).loc main_arg0)) (m ((c : Thread nD τ).loc main_arg1))
            (m ((c : Thread nD τ).loc main_arg2))
            (refRows Facts₀.gather_S1024x64_S500000x1_S500000x64_1_0_n_n_0_1_164_wf Facts₀.bcast_S_S500000
              Facts₀.bcast_S500000_S500000x1_0 (m ((c : Thread nD τ).loc main_arg3)) (m ((c : Thread nD τ).loc main_arg4)))
            (m ((c : Thread nD τ).loc main_arg5)) (m ((c : Thread nD τ).loc main_arg6))
            (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final8 m c).trans (result_eq m c (hB c))), (h c).2⟩)
    (Value.run_blocks m ρ)

end Cert.EdgeMlp.Kern

end
-- ==== Proof.RefRow.lean ====
/-
  The reference's result, read at an entry.

  The reference gathers the global-state rows (`refRows`: the NumPy-style `u[batch]`), concatenates them after the
  three per-edge feature arrays, and applies the two rectified affine layers to the whole [500000, 256] array. Its
  entry (P, q) is therefore `outRow` of row P of the four feature arrays, and the whole result is `mlpArray` of them.
-/
import proofs.«409797_j42606075576610_2_alg».proof.Proof.Gen.ReferenceIdeal.Read
import proofs.«409797_j42606075576610_2_alg».proof.Proof.Spec
import proofs.«409797_j42606075576610_2_alg».proof.Proof.TakeClip

noncomputable section

open scoped BigOperators

namespace Cert.EdgeMlp.Ref

open Idealize.ShloMosaic Idealize.ShloMosaic.ValueIdx
open Cert.ReferenceIdeal Cert.ReferenceIdeal.Read Cert.EdgeMlp

variable [Cert.ReferenceIdeal.Facts]

/-! ## The operand indices of the two products, by coordinates -/

theorem lidx13 (P : Fin 500000) (q k : Fin 64) : lidx_main_v13 (ix2 P q) k = ix2 P k :=
  funext fun a => by match a with | ⟨0, _⟩ => rfl | ⟨1, _⟩ => rfl
theorem ridx13 (P : Fin 500000) (q k : Fin 64) : ridx_main_v13 (ix2 P q) k = ix2 k q :=
  funext fun a => by match a with | ⟨0, _⟩ => rfl | ⟨1, _⟩ => rfl
theorem lidx8 (P : Fin 500000) (k : Fin 64) (l : Fin 256) : lidx_main_v8 (ix2 P k) l = ix2 P l :=
  funext fun a => by match a with | ⟨0, _⟩ => rfl | ⟨1, _⟩ => rfl
theorem ridx8 (P : Fin 500000) (k : Fin 64) (l : Fin 256) : ridx_main_v8 (ix2 P k) l = ix2 l k :=
  funext fun a => by match a with | ⟨0, _⟩ => rfl | ⟨1, _⟩ => rfl

/-! ## The bias rows and the zeros, at an entry -/

theorem bias1_apply (x6 : FVec Ideal S64 .f32) (P : Fin 500000) (k : Fin 64) :
    val_main_v10 (F := Ideal) x6 (ix2 P k) = x6 (ix1 k) := by
  rw [val_main_v10_apply, val_main_v9_apply]
  exact congrArg x6 (funext fun a => by match a with | ⟨0, _⟩ => rfl)

theorem bias2_apply (x8 : FVec Ideal S64 .f32) (P : Fin 500000) (q : Fin 64) :
    val_main_v15 (F := Ideal) x8 (ix2 P q) = x8 (ix1 q) := by
  rw [val_main_v15_apply, val_main_v14_apply]
  exact congrArg x8 (funext fun a => by match a with | ⟨0, _⟩ => rfl)

theorem zero1_apply (i : S500000x64.Idx) : val_main_call0_v0 (F := Ideal) i = zero32 := by
  rw [val_main_call0_v0_apply, val_main_call0_cst_apply]; rfl

theorem zero2_apply (i : S500000x64.Idx) : val_main_call1_v0 (F := Ideal) i = zero32 := by
  rw [val_main_call1_v0_apply, val_main_call1_cst_apply]; rfl

/-! ## The result at an entry -/

/-- Entry (P, q) of the reference's result: the output entry q of the edge whose features are row P of the three
    per-edge arrays and of the gathered rows. -/
theorem ref_apply (x0 x1 x2 : FVec Ideal S500000x64 .f32) (x3 : FVec Ideal S1024x64 .f32) (x4 : IVec S500000 32)
    (x5 : FVec Ideal S256x64 .f32) (x6 : FVec Ideal S64 .f32) (x7 : FVec Ideal S64x64 .f32) (x8 : FVec Ideal S64 .f32)
    (P : Fin 500000) (q : Fin 64) :
    val_main_v17 (F := Ideal) x0 x1 x2 x3 x4 x5 x6 x7 x8 (ix2 P q)
      = outRow (rowOf x0 P) (rowOf x1 P) (rowOf x2 P) (rowOf (val_main_v6 (F := Ideal) x3 x4) P) x5 x6 x7 x8 q := by
  rw [val_main_v17_apply, val_main_v16_apply, val_main_v13_apply, bias2_apply, zero2_apply]
  unfold outRow
  refine congrArg (fun a => max (a + x8 (ix1 q)) zero32) (Finset.sum_congr rfl fun k _ => ?_)
  rw [lidx13, ridx13]
  refine congrArg (fun a => a * x7 (ix2 k q)) ?_
  rw [val_main_v12_apply, val_main_v11_apply, val_main_v8_apply, bias1_apply, zero1_apply]
  unfold hidden
  refine congrArg (fun a => max (a + x6 (ix1 k)) zero32) (Finset.sum_congr rfl fun l _ => ?_)
  rw [lidx8, ridx8]
  refine congrArg (fun a => a * x5 (ix2 l k)) ?_
  unfold val_main_v7
  exact concat4_apply x0 x1 x2 (val_main_v6 (F := Ideal) x3 x4)
    Facts₀.concatenates_S500000x64_S500000x64_S500000x64_S500000x64_S500000x256_d1 P l

/-- The gathered rows are the NumPy-style take of the table at the batch numbers. -/
theorem gathered_eq (x3 : FVec Ideal S1024x64 .f32) (x4 : IVec S500000 32) :
    val_main_v6 (F := Ideal) x3 x4
      = refRows Facts₀.gather_S1024x64_S500000x1_S500000x64_1_0_n_n_0_1_164_wf Facts₀.bcast_S_S500000
          Facts₀.bcast_S500000_S500000x1_0 x3 x4 := rfl

/-- THE REFERENCE'S RESULT as one function of its arguments. -/
theorem ref_eq (x0 x1 x2 : FVec Ideal S500000x64 .f32) (x3 : FVec Ideal S1024x64 .f32) (x4 : IVec S500000 32)
    (x5 : FVec Ideal S256x64 .f32) (x6 : FVec Ideal S64 .f32) (x7 : FVec Ideal S64x64 .f32) (x8 : FVec Ideal S64 .f32) :
    val_main_v17 (F := Ideal) x0 x1 x2 x3 x4 x5 x6 x7 x8
      = mlpArray x0 x1 x2 (refRows Facts₀.gather_S1024x64_S500000x1_S500000x64_1_0_n_n_0_1_164_wf Facts₀.bcast_S_S500000
          Facts₀.bcast_S500000_S500000x1_0 x3 x4) x5 x6 x7 x8 := by
  funext i
  obtain ⟨P, q, rfl⟩ : ∃ (P : Fin 500000) (q : Fin 64), i = ix2 P q := ⟨i 0, i 1, eq_ix2 i⟩
  rw [ref_apply, mlpArray_apply, gathered_eq]

end Cert.EdgeMlp.Ref

end
-- ==== Proof.PreRead.lean ====
/-
  What the precondition says of the batch numbers.

  The precondition is a conjunction whose last conjunct is `all (batch ≥ 0)`: an and-reduction, from the bit 1, of the
  signed comparison of every batch number with 0. When the whole conjunction is the bit 1 so is that conjunct, hence
  every comparison, hence no batch number is negative.
-/
import proofs.«409797_j42606075576610_2_alg».proof.Pre_finite_inputs
import Idealize.ShloMosaic.Lib.ValueIdx
import Idealize.ShloMosaic.Lib.Affine
import Idealize.ShloMosaic.Lib.ReduceAll

noncomputable section

namespace Cert.EdgeMlp

open Idealize.ShloMosaic Idealize.ShloMosaic.ValueIdx
open Cert.Pre_finite_inputs

variable [Cert.Pre_finite_inputs.Facts]

instance : Subsingleton S_.Idx := ⟨fun a b => funext fun d => d.elim0⟩

/-- Under the precondition no batch number is negative. -/
theorem batch_nonneg_of_pre {F : FTy → Type} [FloatOps F] (a0 a1 a2 : FVec F S500000x64 .f32) (a3 : FVec F S1024x64 .f32)
    (a4 : IVec S500000 32) (a5 : FVec F S256x64 .f32) (a6 : FVec F S64 .f32) (a7 : FVec F S64x64 .f32) (a8 : FVec F S64 .f32)
    (h : Cert.Pre_finite_inputs.fn (F := F) a0 a1 a2 a3 a4 a5 a6 a7 a8 = fun _ => 1#1) (e : Fin 500000) :
    0 ≤ (a4 (ix1 e)).toInt := by
  have h0 := congrFun h ix0
  have h1 : IntOp.andi _ (Host.reduce IntOp.andi
      (cmpi .sge a4 (broadcastInDim S500000 ![] Facts.bcast_S_S500000 (constantI S_ 32 0#32)))
      (constantI S_ 1 1#1) Facts.reducesTo_S500000_S_d0 Facts.h_S_ ix0) = 1#1 := h0
  have h2 := Host.reduce_andi_all _ _ _ _ ix0 (IntOp.andi_eq_one.1 h1).2 (ix1 e)
  have h3 : IntOp.cmpi .sge (a4 (ix1 e)) 0#32 = 1#1 := h2
  rw [IntOp.cmpi_sge, show (0#32 : BitVec 32).toInt = 0 from by decide] at h3
  exact h3

end Cert.EdgeMlp

end
-- ==== Proof.lean ====
/-
  An edge model's two-layer perceptron over 500000 edges: each edge's row is its source-node, destination-node and
  edge-attribute features followed by the global state of the graph the edge belongs to (a row of a 1024-row table,
  chosen by the edge's batch number); the row goes through  relu (· W1 + b1)  and  relu (· W2 + b2).

  The kernel gathers the global-state rows on the host (batch numbers clamped into [0, 1023], then a default-mode take)
  and computes the two layers block by block, 5000 edges at a grid point; the reference gathers with NumPy indexing
  (a negative batch number counts from the end of the table) and applies the layers to the whole array. At the
  extended reals each product is the plain sum of products and a change of float format is the identity, so entry
  (P, q) of either result is  max (∑ k, max (∑ l, row l · W1 (l, k) + b1 k) 0 · W2 (k, q) + b2 q) 0  over the
  256-entry row of edge P. The two gathers read the same table row when the batch number is not negative — both then
  read row min b 1023 — and differ for −1023 ≤ b ≤ −1, so the precondition asks, beside finite float inputs, that no
  batch number is negative; the finiteness is not used (no law that fails at infinities is needed).

  Modules: Spec (the value per entry), KernelPay (the body's stored value at an entry), KernelArray (the result
  array after the run), TakeClip (the two gathers), RefRow (the reference's result), PreRead (the batch numbers under the
  precondition).
-/
import proofs.«409797_j42606075576610_2_alg».proof.Defs
import proofs.«409797_j42606075576610_2_alg».proof.Proof.Gen.Kernel
import proofs.«409797_j42606075576610_2_alg».proof.Proof.Gen.Kernel.Skeleton
import proofs.«409797_j42606075576610_2_alg».proof.Proof.Gen.Kernel.Launch
import proofs.«409797_j42606075576610_2_alg».proof.Proof.Gen.Kernel.Points
import proofs.«409797_j42606075576610_2_alg».proof.Proof.Gen.Kernel.Frame
import proofs.«409797_j42606075576610_2_alg».proof.Proof.Gen.KernelIdeal
import proofs.«409797_j42606075576610_2_alg».proof.Proof.Gen.KernelIdeal.Skeleton
import proofs.«409797_j42606075576610_2_alg».proof.Proof.Gen.KernelIdeal.Launch
import proofs.«409797_j42606075576610_2_alg».proof.Proof.Gen.KernelIdeal.Points
import proofs.«409797_j42606075576610_2_alg».proof.Proof.Gen.KernelIdeal.Frame
import proofs.«409797_j42606075576610_2_alg».proof.Proof.Gen.ReferenceIdeal
import proofs.«409797_j42606075576610_2_alg».proof.Proof.Gen.Pre_finite_inputs
import proofs.«409797_j42606075576610_2_alg».proof.Proof.Gen.KernelIdeal.Value
import proofs.«409797_j42606075576610_2_alg».proof.Proof.Gen.ReferenceIdeal.Run
import proofs.«409797_j42606075576610_2_alg».proof.Proof.Gen.ReferenceIdeal.Read
import proofs.«409797_j42606075576610_2_alg».proof.Proof.KernelArray
import proofs.«409797_j42606075576610_2_alg».proof.Proof.RefRow
import proofs.«409797_j42606075576610_2_alg».proof.Proof.PreRead
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel runs and leaves its arguments as they were. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results are `mlpArray` of the arguments with the NumPy-style gathered rows: the kernel's because no batch
    number is negative under the precondition, the reference's as it stands. -/
theorem algebraic : Cert.algebraic_KernelIdeal_ReferenceIdeal := by
  intro m ρ m' ρ' hpre hagree
  have hB : ∀ (c : Dev Cert.KernelIdeal.nD) (e : Fin 500000),
      0 ≤ (m ((c : Thread Cert.KernelIdeal.nD Cert.KernelIdeal.τ).loc Cert.KernelIdeal.main_arg4) (ix1 e)).toInt :=
    fun c e => Cert.EdgeMlp.batch_nonneg_of_pre _ _ _ _ _ _ _ _ _ (hpre c) e
  refine ⟨_, Cert.EdgeMlp.Kern.run m ρ hB, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.EdgeMlp.Ref.ref_eq]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
